-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16777216 : Shape := ⟨1, ![16777216]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16777216 : S_.BroadcastsInDim S16777216 (![] : Fin 0 → Fin S16777216.rank)
  reducesTo_S16777216_S_d0 : S16777216.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x4096 .f32) (main_arg3 : FVec F S16777216 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S16777216 .f32 := Host.absf main_arg3
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S16777216 : Shape := ⟨1, ![16777216]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S16777216, .f32⟩
  | .hbm, ⟨4, _⟩ => ⟨S4096, .f32⟩
  | .hbm, ⟨5, _⟩ => ⟨S8192x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S8192x4096, .f32⟩
  | .hbm, ⟨12, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S16777216_S4096x4096 : S16777216.ShapeCasts S4096x4096
  transposes_S4096x4096_S4096x4096_1_0 : S4096x4096.Transposes [1, 0] S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16777216 : Shape := ⟨1, ![16777216]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S16777216, .f32⟩
  | .hbm, ⟨4, _⟩ => ⟨S4096, .f32⟩
  | .hbm, ⟨5, _⟩ => ⟨S8192x4096, .f32⟩
  | .hbm, ⟨6, _⟩ => ⟨S4096x4096, .f32⟩
  | .hbm, ⟨7, _⟩ => ⟨S4096x4096, .f32⟩
  | .hbm, ⟨8, _⟩ => ⟨S8192x4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S4096x4096_S4096x4096_1_0 : S4096x4096.Transposes [1, 0] S4096x4096
  shapeCasts_S16777216_S4096x4096 : S16777216.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one run of the body leaves behind, in each of its three control cases, as values of
  what it read: the accumulator after the first step of a contraction is the update of the
  reset value; after a later step the update of what the step before left; and at the last
  step the output block is the epilogue of that updated accumulator.
-/
import proofs.«141378_j30837865185920_1_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.SL.Sem
open Idealize.ShloMosaic.Pipeline (Dat)
open Cert.KernelIdeal Cert.KernelIdeal.Gen
namespace Cert.KernelIdeal.Pieces

variable {F : FTy → Type} [FloatOps F]

theorem hz : (![0, 0] : Fin 2 → Nat) = fun _ => 0 := funext fun a => by fin_cases a <;> rfl

/-- First step of a contraction: the accumulator is reset, read back, and updated. -/
theorem acc_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .f32) (x2 : Vec F S1x1024 .f32) :
    sout0_A_0 c i a3 h3 a4 h4 a5 h5 a6 h6 a7 h7 hc0 hc1 x0 x1 x2 = k0_pay2 x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle step: the accumulator the step before left, updated. -/
theorem acc_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .f32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- The last step updates the accumulator the same way, -/
theorem acc_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and stores the epilogue of the updated accumulator and the bias row into the output block. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readCov_unit_zero (S := S1024x1024) _ hz, View.readAt_eq_ld, h3.read_unread, h4.read_unread, h5.read_unread, h7.read_unread,
    View.ld_unit_zero (S := S1024x1024) hz, View.ld_unit_zero (S := S1x1024) hz]

end Cert.KernelIdeal.Pieces

end
-- ==== Proof.PayIdx.lean ====
/-
  The body's three stored values read at one entry of the block, over the extended reals.
  The reset stores zero; the update stores the accumulator plus the product of the two
  input blocks, a sum over the 1024 contracted positions (a change of float format is the
  identity here); the epilogue adds the bias row, the same for every row of the block.
-/
import proofs.«141378_j30837865185920_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.SL.Sem
open Cert.KernelIdeal Cert.KernelIdeal.Gen

namespace Cert.KernelIdeal.PayIdx

/-- The left operand of the block product at output entry i and contracted position q: the row of i, -/
theorem lhs_ax0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- and column q. -/
theorem lhs_ax1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand: row q, -/
theorem rhs_ax0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- and the column of i. -/
theorem rhs_ax1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator, at entry (p, q): the sum over e of l (p, e) * r (e, q). -/
theorem blockdot_apply (l r : FVec Ideal S1024x1024 .bf16) (p q : Fin 1024) :
    matmul dot_S1024x1024_S1024x1024_S1024x1024_1_0_0_1_n_n none l r (constant S1024x1024 .f32 0x00000000#32) (ix2 p q)
      = ∑ e : Fin 1024, l (ix2 p e) * r (ix2 e q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_ax0 _ _
    | ⟨1, _⟩ => exact (lhs_ax1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_ax0 _ _).trans hk
    | ⟨1, _⟩ => exact rhs_ax1 _ _)
  rw [el, er]

/-- The reset's value: zero everywhere. -/
theorem reset_apply (j : S1024x1024.Idx) : k0_pay1 (F := Ideal) j = 0 := by
  unfold k0_pay1
  rw [shapeCast_self]
  show Ideal.ofBits .f32 0x00000000#32 = 0
  exact Ideal.ofBits_zero_f32

/-- The update's value at (p, q): the accumulator there plus the block product there. -/
theorem update_apply (a b acc : Vec Ideal S1024x1024 .f32) (p q : Fin 1024) :
    k0_pay2 (F := Ideal) a b acc (ix2 p q) = acc (ix2 p q) + ∑ e : Fin 1024, a (ix2 p e) * b (ix2 e q) := by
  unfold k0_pay2
  simp only [shapeCast_self]
  rw [addf_apply, blockdot_apply]
  rfl

/-- The epilogue's value at (p, q): the accumulator there plus the bias row at q. -/
theorem epilogue_apply (acc : Vec Ideal S1024x1024 .f32) (brow : Vec Ideal S1x1024 .f32) (p q : Fin 1024) :
    k0_pay3 (F := Ideal) acc brow (ix2 p q) = acc (ix2 p q) + brow (ix2 (0 : Fin 1) q) := by
  unfold k0_pay3
  simp only [shapeCast_self]
  rw [addf_apply, broadcastTo_1b_ab_apply]

end Cert.KernelIdeal.PayIdx

end
-- ==== Proof.Blocks.lean ====
/-
  Where the blocks lie. The grid is 8 x 4 x 4, walked row-major: point t has row block t / 16,
  column block (t / 4) % 4 and contraction step t % 4. At point t the left window shows rows
  1024 (t/16) .. of columns 1024 (t%4) .. of the reshaped input; the right window rows
  1024 (t%4) .. of columns 1024 ((t/4)%4) .. of the transposed combined weight; the bias window
  columns 1024 ((t/4)%4) .. of the bias row; the output window rows 1024 (t/16) .. of columns
  1024 ((t/4)%4) ... And what the three arrays the region reads hold when it starts: the
  reshaped input, the transpose of (sparse weight times mask plus the reshaped dense weight),
  and the bias as a row.
-/
import proofs.«141378_j30837865185920_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic
set_option maxRecDepth 16384

noncomputable section

open Idealize.ShloMosaic Idealize.ShloMosaic.TcCoe Idealize.SL.Sem
open Idealize.ShloMosaic.Pipeline (Dat)
open Cert.KernelIdeal Cert.KernelIdeal.Gen Idealize.ShloMosaic.ValueIdx
namespace Cert.KernelIdeal.Blocks

variable {F : FTy → Type} [FloatOps F]
variable (m : (ℓ : Loc nD τ sig) → Buf (Elt F) ℓ)

/-- The left window's block coordinates at every point. -/
theorem lhs_index : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
/-- The right window's. -/
theorem rhs_index : ∀ t : Fin cfg0.N, win0_1.index t (0 : Fin 2) = t.val % 4 ∧ win0_1.index t (1 : Fin 2) = t.val / 4 % 4 :=
  (by decide +kernel : ∀ t : Fin grid0.N, win0_1.index t (0 : Fin 2) = t.val % 4 ∧ win0_1.index t (1 : Fin 2) = t.val / 4 % 4)
/-- The bias window's. -/
theorem bias_index : ∀ t : Fin cfg0.N, win0_2.index t (0 : Fin 2) = 0 ∧ win0_2.index t (1 : Fin 2) = t.val / 4 % 4 :=
  (by decide +kernel : ∀ t : Fin grid0.N, win0_2.index t (0 : Fin 2) = 0 ∧ win0_2.index t (1 : Fin 2) = t.val / 4 % 4)
/-- The output window's. -/
theorem out_index : ∀ t : Fin cfg0.N, win0_3.index t (0 : Fin 2) = t.val / 16 ∧ win0_3.index t (1 : Fin 2) = t.val / 4 % 4 :=
  (by decide +kernel : ∀ t : Fin grid0.N, win0_3.index t (0 : Fin 2) = t.val / 16 ∧ win0_3.index t (1 : Fin 2) = t.val / 4 % 4)

/-- The three arrays the region reads, and the one it writes, at their literal types. -/
abbrev lhsArr (c : Dev nD) : Vec F S8192x4096 .f32 := V m c main_v0
abbrev rhsArr (c : Dev nD) : Vec F S4096x4096 .f32 := V m c main_v4
abbrev biasArr (c : Dev nD) : Vec F S1x4096 .f32 := V m c main_v5
/-- The three input blocks at a point, at their literal types. -/
abbrev lhsBlk (c : Dev nD) (t : Fin cfg0.N) : Vec F S1024x1024 .f32 := iblk m c 0 t
abbrev rhsBlk (c : Dev nD) (t : Fin cfg0.N) : Vec F S1024x1024 .f32 := iblk m c 1 t
abbrev biasBlk (c : Dev nD) (t : Fin cfg0.N) : Vec F S1x1024 .f32 := iblk m c 2 t

/-- Entry (p, e) of the left block at point t is entry (1024 (t/16) + p, 1024 (t%4) + e) of the left array. -/
theorem lhsBlk_apply (c : Dev nD) (t : Fin cfg0.N) (p e : Fin 1024) (a : Fin 8192) (b : Fin 4096)
    (ha : a.val = 1024 * (t.val / 16) + p.val) (hb : b.val = 1024 * (t.val % 4) + e.val) :
    lhsBlk m c t (ix2 p e) = lhsArr m c (ix2 a b) := by
  unfold lhsBlk lhsArr iblk
  rw [View.read_apply]
  show V m c main_v0 _ = V m c main_v0 _
  congr 1
  funext ax
  apply Fin.ext
  match ax with
  | ⟨0, _⟩ => show win0_0.index t 0 * 1024 + 1 * p.val = a.val; rw [(lhs_index t).1, ha]; omega
  | ⟨1, _⟩ => show win0_0.index t 1 * 1024 + 1 * e.val = b.val; rw [(lhs_index t).2, hb]; omega

/-- Entry (e, q) of the right block at point t is entry (1024 (t%4) + e, 1024 ((t/4)%4) + q) of the right array. -/
theorem rhsBlk_apply (c : Dev nD) (t : Fin cfg0.N) (e q : Fin 1024) (a b : Fin 4096)
    (ha : a.val = 1024 * (t.val % 4) + e.val) (hb : b.val = 1024 * (t.val / 4 % 4) + q.val) :
    rhsBlk m c t (ix2 e q) = rhsArr m c (ix2 a b) := by
  unfold rhsBlk rhsArr iblk
  rw [View.read_apply]
  show V m c main_v4 _ = V m c main_v4 _
  congr 1
  funext ax
  apply Fin.ext
  match ax with
  | ⟨0, _⟩ => show win0_1.index t 0 * 1024 + 1 * e.val = a.val; rw [(rhs_index t).1, ha]; omega
  | ⟨1, _⟩ => show win0_1.index t 1 * 1024 + 1 * q.val = b.val; rw [(rhs_index t).2, hb]; omega

/-- Entry (0, q) of the bias block at point t is entry (0, 1024 ((t/4)%4) + q) of the bias row. -/
theorem biasBlk_apply (c : Dev nD) (t : Fin cfg0.N) (q : Fin 1024) (b : Fin 4096)
    (hb : b.val = 1024 * (t.val / 4 % 4) + q.val) :
    biasBlk m c t (ix2 (0 : Fin 1) q) = biasArr m c (ix2 (0 : Fin 1) b) := by
  unfold biasBlk biasArr iblk
  rw [View.read_apply]
  show V m c main_v5 _ = V m c main_v5 _
  congr 1
  funext ax
  apply Fin.ext
  match ax with
  | ⟨0, _⟩ => show win0_2.index t 0 * 1 + 1 * 0 = 0; rw [(bias_index t).1]
  | ⟨1, _⟩ => show win0_2.index t 1 * 1024 + 1 * q.val = b.val; rw [(bias_index t).2, hb]; omega

/-- The left array is the input reshaped to 8192 rows. -/
theorem lhsArr_eq (c : Dev nD) :
    lhsArr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The right array is the transpose of the sparse weight times its mask plus the dense weight reshaped square. -/
theorem rhsArr_eq (c : Dev nD) :
    rhsArr m c = transpose S4096x4096 [1, 0] (addf (mulf (m ((c : Thread nD τ).loc main_arg1)) (m ((c : Thread nD τ).loc main_arg2)))
        (shapeCast S4096x4096 (m ((c : Thread nD τ).loc main_arg3)) shapeCasts_S16777216_S4096x4096)) transposes_S4096x4096_S4096x4096_1_0 := by
  show StableHlo.after hostOps0 (fun b => m (c, b)) (Proc.devRef .tc main_v4) = _
  after_results
  rfl

/-- The bias array is the bias as one row. -/
theorem biasArr_eq (c : Dev nD) :
    biasArr m c = shapeCast S1x4096 (m ((c : Thread nD τ).loc main_arg4)) shapeCasts_S4096_S1x4096 := by
  show StableHlo.after hostOps0 (fun b => m (c, b)) (Proc.devRef .tc main_v5) = _
  after_results
  rfl

end Cert.KernelIdeal.Blocks

end
-- ==== Proof.Entry.lean ====
/-
  An entry of a two-axis array of extended reals addressed by two natural numbers (zero
  outside the extents), so that block arithmetic on positions is plain arithmetic.
-/
import Idealize.ShloMosaic.PureOps.Ideal
import Idealize.ShloMosaic.Lib.ValueIdx

noncomputable section

open Idealize.ShloMosaic Idealize.ShloMosaic.ValueIdx

namespace Cert.Entry

/-- Entry (a, b) of a two-axis array, zero outside its extents. -/
def at2 {n0 n1 : ℕ} (Z : (⟨2, ![n0, n1]⟩ : Shape).Idx → EReal) (a b : ℕ) : EReal :=
  if h : a < n0 ∧ b < n1 then Z (ix2 ⟨a, h.1⟩ ⟨b, h.2⟩) else 0

/-- At positions inside the extents it is the array's entry. -/
theorem at2_fin {n0 n1 : ℕ} (Z : (⟨2, ![n0, n1]⟩ : Shape).Idx → EReal) (a : Fin n0) (b : Fin n1) :
    at2 Z a.val b.val = Z (ix2 a b) := by
  unfold at2
  rw [dif_pos ⟨a.isLt, b.isLt⟩]

/-- The same, the positions given as numbers with their bounds. -/
theorem at2_of_lt {n0 n1 : ℕ} (Z : (⟨2, ![n0, n1]⟩ : Shape).Idx → EReal) (a b : ℕ) (ha : a < n0) (hb : b < n1) :
    at2 Z a b = Z (ix2 ⟨a, ha⟩ ⟨b, hb⟩) := by
  unfold at2
  rw [dif_pos ⟨ha, hb⟩]

/-- If every entry of the array is a real number, so is every addressed entry. -/
theorem at2_real {n0 n1 : ℕ} (Z : (⟨2, ![n0, n1]⟩ : Shape).Idx → EReal) (hZ : ∀ i, ∃ r : ℝ, Z i = (r : EReal)) (a b : ℕ) :
    ∃ r : ℝ, at2 Z a b = (r : EReal) := by
  unfold at2
  split
  · exact hZ _
  · exact ⟨0, rfl⟩

end Cert.Entry

end
-- ==== Proof.Accum.lean ====
/-
  The accumulator, step by step. At a point whose contraction step is 0 the accumulator ends
  holding that step's block product (zero plus it); at a later step what the step before left
  plus this step's block product. So after the point with row block i, column block j and step
  k it holds, at entry (p, q), the sum over the steps 0..k of the products of row 1024 i + p of
  the left array with column 1024 j + q of the right array over that step's 1024 positions.
  At the last step the output block holds that accumulator plus the bias row.
-/
import proofs.«141378_j30837865185920_1_alg».proof.Proof.Gen.KernelIdeal.Frame
import proofs.«141378_j30837865185920_1_alg».proof.Proof.Pieces
import proofs.«141378_j30837865185920_1_alg».proof.Proof.PayIdx
import proofs.«141378_j30837865185920_1_alg».proof.Proof.Blocks
import proofs.«141378_j30837865185920_1_alg».proof.Proof.Entry

set_option maxRecDepth 16384

noncomputable section

open Idealize.ShloMosaic Idealize.ShloMosaic.TcCoe Idealize.SL.Sem Idealize.ShloMosaic.ValueIdx
open Cert.KernelIdeal Cert.KernelIdeal.Gen Cert.KernelIdeal.Pieces Cert.KernelIdeal.PayIdx Cert.KernelIdeal.Blocks Cert.Entry

namespace Cert.KernelIdeal.Accum

variable (m : (ℓ : Loc nD τ sig) → Buf (Elt Ideal) ℓ)

/-- Contraction step kk's share of entry (a, b) of the product of X and W: positions 1024 kk .. 1024 kk + 1023. -/
def stepSum (X : S8192x4096.Idx → EReal) (W : S4096x4096.Idx → EReal) (a b kk : ℕ) : EReal :=
  ∑ e : Fin 1024, at2 X a (1024 * kk + e.val) * at2 W (1024 * kk + e.val) b

theorem N128 : cfg0.N = 128 := N_0

/-- The block product at a point is that point's step share. -/
theorem blockprod_eq (c : Dev nD) (t : Fin cfg0.N) (p q : Fin 1024) :
    ∑ e : Fin 1024, lhsBlk m c t (ix2 p e) * rhsBlk m c t (ix2 e q)
      = stepSum (lhsArr m c) (rhsArr m c) (1024 * (t.val / 16) + p.val) (1024 * (t.val / 4 % 4) + q.val) (t.val % 4) := by
  have hN : t.val < 128 := lt_of_lt_of_eq t.isLt N128
  unfold stepSum
  refine Finset.sum_congr rfl fun e _ => ?_
  have hp := p.isLt
  have hq := q.isLt
  have he := e.isLt
  have ha : 1024 * (t.val / 16) + p.val < 8192 := by omega
  have hb : 1024 * (t.val % 4) + e.val < 4096 := by omega
  have hc : 1024 * (t.val / 4 % 4) + q.val < 4096 := by omega
  rw [lhsBlk_apply m c t p e ⟨_, ha⟩ ⟨_, hb⟩ rfl rfl, rhsBlk_apply m c t e q ⟨_, hb⟩ ⟨_, hc⟩ rfl rfl,
    at2_of_lt (lhsArr m c) _ _ ha hb, at2_of_lt (rhsArr m c) _ _ hb hc]

/-- Step 0 of a contraction: the accumulator ends at the block product. -/
theorem acc_step0 (c : Dev nD) (t : Fin cfg0.N) (h0 : t.val % 4 = 0) (p q : Fin 1024) :
    (outsAt0 m c t.val t.isLt).2 (ix2 p q) = ∑ e : Fin 1024, lhsBlk m c t (ix2 p e) * rhsBlk m c t (ix2 e q) := by
  have h1 : ¬t.val % 4 = 3 := by omega
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (lhsBlk m c t) (rhsBlk m c t) (biasBlk m c t)) (ix2 p q)).trans ?_
  rw [update_apply, reset_apply, zero_add]

/-- A later step: what the step before left, plus the block product. -/
theorem acc_stepn (c : Dev nD) (t : Fin cfg0.N) (h0 : ¬t.val % 4 = 0) (p q : Fin 1024) :
    (outsAt0 m c t.val t.isLt).2 (ix2 p q)
      = (outsAt0 m c (t.val - 1) (Nat.lt_of_le_of_lt (Nat.sub_le _ _) t.isLt)).2 (ix2 p q)
        + ∑ e : Fin 1024, lhsBlk m c t (ix2 p e) * rhsBlk m c t (ix2 e q) := by
  by_cases h1 : t.val % 4 = 3
  · rw [outsAt0_C m c t h0 h1]
    dsimp only
    refine (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (lhsBlk m c t) (rhsBlk m c t) (biasBlk m c t) (outsAt0 m c (t.val - 1) (Nat.lt_of_le_of_lt (Nat.sub_le _ _) t.isLt)).2) (ix2 p q)).trans ?_
    rw [update_apply]
  · rw [outsAt0_B m c t h0 h1]
    dsimp only
    refine (congrFun (acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (lhsBlk m c t) (rhsBlk m c t) (biasBlk m c t) (outsAt0 m c (t.val - 1) (Nat.lt_of_le_of_lt (Nat.sub_le _ _) t.isLt)).2) (ix2 p q)).trans ?_
    rw [update_apply]

/-- The last step's output block: the accumulator it leaves plus the bias block's row. -/
theorem out_step3 (c : Dev nD) (t : Fin cfg0.N) (h1 : t.val % 4 = 3) (p q : Fin 1024) :
    (outsAt0 m c t.val t.isLt).1 (ix2 p q) = (outsAt0 m c t.val t.isLt).2 (ix2 p q) + biasBlk m c t (ix2 (0 : Fin 1) q) := by
  have h0 : ¬t.val % 4 = 0 := by omega
  rw [outsAt0_C m c t h0 h1]
  dsimp only
  rw [out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (lhsBlk m c t) (rhsBlk m c t) (biasBlk m c t) (outsAt0 m c (t.val - 1) (Nat.lt_of_le_of_lt (Nat.sub_le _ _) t.isLt)).2,
    acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (lhsBlk m c t) (rhsBlk m c t) (biasBlk m c t) (outsAt0 m c (t.val - 1) (Nat.lt_of_le_of_lt (Nat.sub_le _ _) t.isLt)).2,
    epilogue_apply]

/-- THE ACCUMULATOR after point n, at entry (p, q): the steps 0 .. n % 4 of the product of row 1024 (n/16) + p of
    the left array with column 1024 ((n/4)%4) + q of the right array. By induction on the point. -/
theorem acc_eq (c : Dev nD) : ∀ (n : ℕ) (h : n < cfg0.N) (p q : Fin 1024),
    (outsAt0 m c n h).2 (ix2 p q)
      = ∑ kk ∈ Finset.range (n % 4 + 1), stepSum (lhsArr m c) (rhsArr m c) (1024 * (n / 16) + p.val) (1024 * (n / 4 % 4) + q.val) kk
  | 0, h, p, q => by
    rw [acc_step0 m c ⟨0, h⟩ rfl p q, blockprod_eq m c ⟨0, h⟩ p q]
    simp only [Nat.zero_mod, Nat.zero_div, Finset.sum_range_one, zero_add]
  | n + 1, h, p, q => by
    by_cases h0 : (n + 1) % 4 = 0
    · rw [acc_step0 m c ⟨n + 1, h⟩ h0 p q, blockprod_eq m c ⟨n + 1, h⟩ p q]
      dsimp only
      rw [h0]
      simp only [Finset.sum_range_one, zero_add]
    · rw [acc_stepn m c ⟨n + 1, h⟩ h0 p q, blockprod_eq m c ⟨n + 1, h⟩ p q]
      show (outsAt0 m c n _).2 (ix2 p q) + _ = _
      rw [acc_eq c n _ p q]
      have e1 : (n + 1) / 16 = n / 16 := by omega
      have e2 : (n + 1) / 4 % 4 = n / 4 % 4 := by omega
      have e3 : (n + 1) % 4 = n % 4 + 1 := by omega
      dsimp only
      rw [e1, e2, e3, Finset.sum_range_succ (n := n % 4 + 1)]

end Cert.KernelIdeal.Accum

end
-- ==== Proof.Result.lean ====
/-
  The result array. Every point whose contraction step is 3 writes its output block back; that
  block, at entry (p, q), is the four steps of the product of row 1024 i + p with column
  1024 j + q, plus the bias at column 1024 j + q: the block of ONE whole-array function, the
  product of the left and right arrays plus the bias row. The 32 such blocks tile the 8192 x 4096
  array, so it ends holding that function; the program's last line reshapes it to 4 x 2048 x 4096.
-/
import proofs.«141378_j30837865185920_1_alg».proof.Proof.Gen.KernelIdeal.Frame
import proofs.«141378_j30837865185920_1_alg».proof.Proof.Accum
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum Cert.Entry

namespace Cert.KernelIdeal.Result

variable (m : (ℓ : Loc nD τ sig) → Buf (Elt Ideal) ℓ) (ρ : Dev nD → PrngReg)

/-- The blocked product of X and W plus the row B: at (r, s), the four steps' shares of row r times column s, plus B at s. -/
def prodBias (X : S8192x4096.Idx → EReal) (W : S4096x4096.Idx → EReal) (B : S1x4096.Idx → EReal) : S8192x4096.Idx → EReal :=
  fun j => ∑ kk ∈ Finset.range 4, stepSum X W (j 0).val (j 1).val kk + at2 B 0 (j 1).val

/-- The output block a last-step point leaves, entry by entry, is the whole-array function at the block's place. -/
theorem outBlock_entry (c : Dev nD) (t : Fin cfg0.N) (h3 : t.val % 4 = 3) (p q : Fin 1024) (j : S8192x4096.Idx)
    (hj0 : (j 0).val = 1024 * (t.val / 16) + p.val) (hj1 : (j 1).val = 1024 * (t.val / 4 % 4) + q.val) :
    (outsAt0 m c t.val t.isLt).1 (ix2 p q) = prodBias (lhsArr m c) (rhsArr m c) (biasArr m c) j := by
  have hN : t.val < 128 := lt_of_lt_of_eq t.isLt N128
  have hq := q.isLt
  have hb : 1024 * (t.val / 4 % 4) + q.val < 4096 := by omega
  rw [out_step3 m c t h3 p q, acc_eq m c t.val t.isLt p q, h3, biasBlk_apply m c t q ⟨_, hb⟩ rfl]
  unfold prodBias
  rw [hj0, hj1, at2_of_lt (biasArr m c) 0 _ Nat.one_pos hb]
  rfl

/-- WHAT A LAST-STEP POINT WRITES BACK is its block of the whole-array function. -/
theorem flushed_eq (c : Dev nD) (t : Fin cfg0.N) (hf : (cfg0.win 3).flush t = true) :
    (dats m 0 c).flushed 3 t = ((cfg0.win 3).blk t).view.read (Elt Ideal) (prodBias (lhsArr m c) (rhsArr m c) (biasArr m c)) := by
  have h3 : t.val % 4 = 3 := (flush0_3 t).mp hf
  show (cfg0.win 3).cut (grid0.coords t) ((dats m 0 c).after 3 t) = _
  rw [after0_3]
  funext y
  rw [View.read_apply]
  have hy : (y : S1024x1024.Idx) = ix2 ((y : S1024x1024.Idx) 0) ((y : S1024x1024.Idx) 1) := eq_ix2 (n0 := 1024) (n1 := 1024) y
  refine (congrArg (outsAt0 m c t.val t.isLt).1 hy).trans ?_
  refine outBlock_entry m c t h3 _ _ _ ?_ ?_
  · show win0_3.index t 0 * 1024 + 1 * ((y : S1024x1024.Idx) 0).val = _
    rw [(out_index t).1]; omega
  · show win0_3.index t 1 * 1024 + 1 * ((y : S1024x1024.Idx) 1).val = _
    rw [(out_index t).2]; omega

/-- A position of the array is in point t's output block iff each coordinate is in the block's range. -/
theorem mem_outBlock (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v6).slice (win0_3.rect t)).set ↔ _
  rw [View.set_slice_whole, Rect.mem_set_unit]
  exact Iff.rfl

/-- Every position is in the output block of a last-step point: rows r/1024, columns s/1024, step 3. -/
theorem covered (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : 16 * ((i 0).val / 1024) + 4 * ((i 1).val / 1024) + 3 < cfg0.N := by rw [N128]; omega
  refine ⟨⟨16 * ((i 0).val / 1024) + 4 * ((i 1).val / 1024) + 3, hN⟩, (flush0_3 _).mpr (by dsimp only; omega), ?_⟩
  rw [mem_outBlock]
  intro a
  match a with
  | ⟨0, _⟩ =>
    show win0_3.index _ 0 * 1024 ≤ (i 0).val ∧ (i 0).val < win0_3.index _ 0 * 1024 + 1024
    rw [(out_index _).1]; dsimp only; omega
  | ⟨1, _⟩ =>
    show win0_3.index _ 1 * 1024 ≤ (i 1).val ∧ (i 1).val < win0_3.index _ 1 * 1024 + 1024
    rw [(out_index _).2]; dsimp only; omega

/-- THE RESULT ARRAY of the region: the product of the left and right arrays plus the bias row. -/
theorem final (c : Dev nD) : (dats m 0 c).arrAt 3 cfg0.N = prodBias (lhsArr m c) (rhsArr m c) (biasArr m c) :=
  (dats m 0 c).arrAt_eq_of_cover 3 (prodBias (lhsArr m c) (rhsArr m c) (biasArr m c)) (flushed_eq m c) covered

/-- The program's result: the region's result array reshaped to 4 x 2048 x 4096 by the last line. -/
theorem tail_eq (c : Dev nD) :
    Pipeline.afterTail₀ cfgs (dats m) 0 (V0 m) [hostOps1] c main_v7
      = shapeCast S4x2048x4096 (prodBias (lhsArr m c) (rhsArr m c) (biasArr m c)) shapeCasts_S8192x4096_S4x2048x4096 := by
  unfold Pipeline.afterTail₀
  show StableHlo.after hostOps1 _ (Proc.devRef .tc main_v7) = _
  after_results
  exact congrArg (fun z => shapeCast S4x2048x4096 z shapeCasts_S8192x4096_S4x2048x4096)
    ((Pipeline.withArrays_arr spec0 launch0.win.arr_inj c _ _ 3).trans (final m c))

/-- THE RUN of the idealized kernel, read: its result at the reshaped product-plus-bias of the arrays the region
    found, every argument unchanged. -/
theorem run : θ_run defs (onTc (τ := τ) (main (F := Ideal))) ⟨m, fun _ => 0, ρ⟩ fun r => ∀ c : Dev nD,
      r.2.mem ((c.tc : Thread nD τ).loc main_v7)
        = shapeCast S4x2048x4096 (prodBias (lhsArr m c) (rhsArr m c) (biasArr m c)) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RealSums.lean ====
/-
  Sums of products on the extended reals, for a contraction cut into blocks.

  A contraction of length nb * bs is accumulated block by block, each block of
  bs consecutive indices.  Because addition on the extended reals is commutative
  and associative, regrouping the blocks is free.  Distributing a product over a
  sum, x * (a + b) = x * a + x * b, is not valid on all extended reals, but it is
  valid when x, a and b are real, which is the situation here.
-/
import Idealize.ShloMosaic.PureOps.Ideal

noncomputable section

namespace Cert.RealSums

/-- Summing block by block (nb blocks of bs consecutive indices) is summing over
    all nb * bs indices.  Holds in any additive commutative monoid. -/
theorem blocked_sum {M : Type*} [AddCommMonoid M] (nb bs : ℕ) (F : ℕ → M) :
    ∑ kk ∈ Finset.range nb, ∑ e : Fin bs, F (bs * kk + e.val)
      = ∑ k : Fin (nb * bs), F k.val := by
  rw [Fin.sum_univ_eq_sum_range (fun k => F k) (nb * bs)]
  induction nb with
  | zero => simp
  | succ n ih =>
    rw [Finset.sum_range_succ, ih, Nat.succ_mul, Finset.sum_range_add,
      Fin.sum_univ_eq_sum_range (fun e => F (bs * n + e)) bs, Nat.mul_comm bs n]

/-- On real entries, multiplication distributes over addition in the extended reals. -/
theorem mul_add_of_real (x a b : EReal)
    (hx : ∃ r : ℝ, x = (r : EReal)) (ha : ∃ r : ℝ, a = (r : EReal))
    (hb : ∃ r : ℝ, b = (r : EReal)) :
    x * (a + b) = x * a + x * b := by
  obtain ⟨x, rfl⟩ := hx
  obtain ⟨a, rfl⟩ := ha
  obtain ⟨b, rfl⟩ := hb
  rw [← EReal.coe_add, ← EReal.coe_mul, mul_add, EReal.coe_add, EReal.coe_mul, EReal.coe_mul]

/-- A blocked contraction against a sum A + B of real factors is the sum of the two
    whole contractions. -/
theorem blocked_dot (nb bs : ℕ) (X A B : ℕ → EReal)
    (hX : ∀ k, ∃ r : ℝ, X k = (r : EReal)) (hA : ∀ k, ∃ r : ℝ, A k = (r : EReal)) (hB : ∀ k, ∃ r : ℝ, B k = (r : EReal)) :
    ∑ kk ∈ Finset.range nb, ∑ e : Fin bs, X (bs * kk + e.val) * (A (bs * kk + e.val) + B (bs * kk + e.val))
      = ∑ k : Fin (nb * bs), X k.val * A k.val + ∑ k : Fin (nb * bs), X k.val * B k.val := by
  rw [blocked_sum nb bs (fun k => X k * (A k + B k)), ← Finset.sum_add_distrib]
  exact Finset.sum_congr rfl (fun k _ => mul_add_of_real _ _ _ (hX _) (hA _) (hB _))

end Cert.RealSums

end
-- ==== Proof.RefRead.lean ====
/-
  The reference program's value before its last reshape, read at a row r and a
  column c: the sum of two contractions over the shared axis of length 4096
  (the first against the transposed elementwise product of two matrices, the
  second against the transposed reshaped vector), plus the bias at column c.
-/
import proofs.«141378_j30837865185920_1_alg».proof.Proof.Gen.ReferenceIdeal.Read

noncomputable section

namespace Cert.RefRead

open Idealize.ShloMosaic Idealize.ShloMosaic.ValueIdx Cert.ReferenceIdeal Cert.ReferenceIdeal.Read

/-- The left operand of the first contraction is read at row r, position k. -/
theorem lidx_v3_ix (r : Fin 8192) (c k : Fin 4096) : lidx_main_v3 (ix2 r c) k = ix2 r k :=
  funext fun a => Fin.ext (by match a with | ⟨0, _⟩ => rfl | ⟨1, _⟩ => rfl)

/-- The right operand of the first contraction is read at position k, column c. -/
theorem ridx_v3_ix (r : Fin 8192) (c k : Fin 4096) : ridx_main_v3 (ix2 r c) k = ix2 k c :=
  funext fun a => Fin.ext (by match a with | ⟨0, _⟩ => rfl | ⟨1, _⟩ => rfl)

/-- The left operand of the second contraction is read at row r, position k. -/
theorem lidx_v6_ix (r : Fin 8192) (c k : Fin 4096) : lidx_main_v6 (ix2 r c) k = ix2 r k :=
  funext fun a => Fin.ext (by match a with | ⟨0, _⟩ => rfl | ⟨1, _⟩ => rfl)

/-- The right operand of the second contraction is read at position k, column c. -/
theorem ridx_v6_ix (r : Fin 8192) (c k : Fin 4096) : ridx_main_v6 (ix2 r c) k = ix2 k c :=
  funext fun a => Fin.ext (by match a with | ⟨0, _⟩ => rfl | ⟨1, _⟩ => rfl)

/-- The bias, broadcast along the rows, is read at column c. -/
theorem idx_v8_v9_ix (r : Fin 8192) (c : Fin 4096) : idx_main_v8 (idx_main_v9 (ix2 r c)) = ix1 c :=
  funext fun a => Fin.ext (by match a with | ⟨0, _⟩ => rfl)

theorem ref_at (x0 : FVec Ideal S4x2048x4096 .f32) (x1 x2 : FVec Ideal S4096x4096 .f32) (x3 : FVec Ideal S16777216 .f32) (x4 : FVec Ideal S4096 .f32) (r : Fin 8192) (c : Fin 4096) :
    val_main_v10 (F := Ideal) x0 x1 x2 x3 x4 (ix2 r c)
      = (∑ k : Fin 4096, val_main_v0 (F := Ideal) x0 (ix2 r k) * val_main_v2 (F := Ideal) x1 x2 (ix2 k c)
          + ∑ k : Fin 4096, val_main_v0 (F := Ideal) x0 (ix2 r k) * val_main_v5 (F := Ideal) x3 (ix2 k c))
        + x4 (ix1 c) := by
  rw [val_main_v10_apply, val_main_v7_apply, val_main_v3_apply, val_main_v6_apply,
    val_main_v9_apply, val_main_v8_apply]
  simp only [lidx_v3_ix, ridx_v3_ix, lidx_v6_ix, ridx_v6_ix, idx_v8_v9_ix, Ideal.addf_def]

end Cert.RefRead

end
-- ==== Proof.Bridge.lean ====
/-
  The kernel's array is the reference's. The kernel multiplies the reshaped input by the
  transpose of (sparse weight times mask plus dense weight), four blocks of 1024 contracted
  positions one after the other, and adds the bias; the reference multiplies the reshaped input
  by the transposed masked weight and by the transposed dense weight separately, adds the two
  products, and adds the bias. The transpose of a sum is the sum of the transposes; a sum cut
  into blocks is the whole sum; and x (a + b) = x a + x b on real numbers, which is where the
  finiteness of the inputs is used (on the extended reals that law fails at the infinities).
-/
import proofs.«141378_j30837865185920_1_alg».proof.Proof.Result
import proofs.«141378_j30837865185920_1_alg».proof.Proof.RealSums
import proofs.«141378_j30837865185920_1_alg».proof.Proof.RefRead
import Idealize.ShloMosaic.Lib.ValueLayout

noncomputable section

open Idealize.ShloMosaic Idealize.ShloMosaic.ValueIdx
open Cert.KernelIdeal Cert.KernelIdeal.Facts₀ Cert.KernelIdeal.Accum Cert.KernelIdeal.Result Cert.Entry

namespace Cert.Bridge

/-- An addressed entry of a pointwise sum of two arrays is the sum of the addressed entries. -/
theorem at2_add {n0 n1 : ℕ} (Z1 Z2 : (⟨2, ![n0, n1]⟩ : Shape).Idx → EReal) (a b : ℕ) :
    at2 (fun i => Z1 i + Z2 i) a b = at2 Z1 a b + at2 Z2 a b := by
  unfold at2
  split
  · rfl
  · exact (add_zero _).symm

variable (x0 : FVec Ideal S4x2048x4096 .f32) (x1 x2 : FVec Ideal S4096x4096 .f32) (x3 : FVec Ideal S16777216 .f32) (x4 : FVec Ideal S4096 .f32)

/-- The reshaped input, -/
abbrev inp : S8192x4096.Idx → EReal := shapeCast S8192x4096 x0 shapeCasts_S4x2048x4096_S8192x4096
/-- the transposed masked weight, -/
abbrev wMasked : S4096x4096.Idx → EReal := transpose S4096x4096 [1, 0] (mulf x1 x2) transposes_S4096x4096_S4096x4096_1_0
/-- the transposed dense weight, -/
abbrev wDense : S4096x4096.Idx → EReal := transpose S4096x4096 [1, 0] (shapeCast S4096x4096 x3 shapeCasts_S16777216_S4096x4096) transposes_S4096x4096_S4096x4096_1_0
/-- and the transposed combined weight the kernel multiplies by: their pointwise sum. -/
theorem wTotal_eq :
    (transpose S4096x4096 [1, 0] (addf (mulf x1 x2) (shapeCast S4096x4096 x3 shapeCasts_S16777216_S4096x4096)) transposes_S4096x4096_S4096x4096_1_0 : S4096x4096.Idx → EReal)
      = fun i => wMasked x1 x2 i + wDense x3 i := rfl

theorem inp_real (h0 : ∀ i, ∃ r : ℝ, x0 i = (r : EReal)) (i : S8192x4096.Idx) : ∃ r : ℝ, inp x0 i = (r : EReal) := by
  unfold inp shapeCast
  exact h0 _

theorem wMasked_real (h1 : ∀ i, ∃ r : ℝ, x1 i = (r : EReal)) (h2 : ∀ i, ∃ r : ℝ, x2 i = (r : EReal)) (i : S4096x4096.Idx) :
    ∃ r : ℝ, wMasked x1 x2 i = (r : EReal) := by
  obtain ⟨r1, e1⟩ := h1 (transposes_S4096x4096_S4096x4096_1_0.src i)
  obtain ⟨r2, e2⟩ := h2 (transposes_S4096x4096_S4096x4096_1_0.src i)
  refine ⟨r1 * r2, ?_⟩
  show x1 _ * x2 _ = _
  rw [e1, e2, EReal.coe_mul]

theorem wDense_real (h3 : ∀ i, ∃ r : ℝ, x3 i = (r : EReal)) (i : S4096x4096.Idx) : ∃ r : ℝ, wDense x3 i = (r : EReal) := by
  unfold wDense transpose shapeCast
  exact h3 _

/-- THE TWO ARRAYS ARE ONE: the kernel's blocked product with the combined weight, plus the bias row, is the
    reference's sum of two whole products plus the broadcast bias, entry by entry, when the inputs are real. -/
theorem prodBias_eq_ref (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    prodBias (inp x0)
        (transpose S4096x4096 [1, 0] (addf (mulf x1 x2) (shapeCast S4096x4096 x3 shapeCasts_S16777216_S4096x4096)) transposes_S4096x4096_S4096x4096_1_0)
        (shapeCast S1x4096 x4 shapeCasts_S4096_S1x4096)
      = Cert.ReferenceIdeal.Read.val_main_v10 (F := Ideal) x0 x1 x2 x3 x4 := by
  funext j
  obtain ⟨r, s, rfl⟩ : ∃ (r : Fin 8192) (s : Fin 4096), j = ix2 r s := ⟨j 0, j 1, eq_ix2 j⟩
  rw [Cert.RefRead.ref_at, wTotal_eq]
  unfold prodBias stepSum
  simp only [at2_add]
  show ∑ kk ∈ Finset.range 4, ∑ e : Fin 1024, at2 (inp x0) r.val (1024 * kk + e.val) * (at2 (wMasked x1 x2) (1024 * kk + e.val) s.val + at2 (wDense x3) (1024 * kk + e.val) s.val)
      + at2 (shapeCast S1x4096 x4 shapeCasts_S4096_S1x4096) 0 s.val = _
  rw [Cert.RealSums.blocked_dot 4 1024 (fun k => at2 (inp x0) r.val k) (fun k => at2 (wMasked x1 x2) k s.val) (fun k => at2 (wDense x3) k s.val)
    (fun k => at2_real _ (inp_real x0 h0) _ _) (fun k => at2_real _ (wMasked_real x1 x2 h1 h2) _ _) (fun k => at2_real _ (wDense_real x3 h3) _ _)]
  congr 1
  · congr 1
    · show ∑ k : Fin 4096, at2 (inp x0) r.val k.val * at2 (wMasked x1 x2) k.val s.val = _
      refine Finset.sum_congr rfl fun k _ => ?_
      rw [at2_fin, at2_fin]
      rfl
    · show ∑ k : Fin 4096, at2 (inp x0) r.val k.val * at2 (wDense x3) k.val s.val = _
      refine Finset.sum_congr rfl fun k _ => ?_
      rw [at2_fin, at2_fin]
      rfl
  · rw [at2_of_lt _ 0 s.val Nat.one_pos s.isLt]
    exact shapeCast_a_1a_apply x4 _ _ s

end Cert.Bridge

end
-- ==== Proof.Finite.lean ====
/-
  The precondition "every float input is finite", read at the ideal instance (floats as extended reals).
  The predicate is the conjunction, over the five inputs, of `all (|x| < +∞)`: an elementwise comparison of
  `max x (-x)` against the broadcast constant `+∞`, reduced by `and` over every axis to one bit. When that bit is 1
  each reduction is 1, hence each compared element is 1, hence `max (x i) (-(x i)) < ⊤`; an extended real with that
  property is neither `⊤` nor `⊥`, so it is the image of a real number.
-/
import proofs.«141378_j30837865185920_1_alg».proof.Proof.Gen.Pre_finite_inputs
import Idealize.ShloMosaic.PureOps.Ideal
import Idealize.ShloMosaic.Lib.ReduceAll
import Idealize.ShloMosaic.Lib.ValueIdx
noncomputable section
namespace Cert.Finite
open Idealize.ShloMosaic Cert.Pre_finite_inputs

/-- The scalar shape has exactly one index. -/
instance subsingleton_scalar_idx : Subsingleton S_.Idx := ⟨fun a b => funext fun d => d.elim0⟩

/-- The f32 pattern with all-ones exponent, zero fraction and sign bit clear denotes `+∞`. -/
theorem inf_bits : Ideal.ofBits .f32 0x7F800000#32 = (⊤ : EReal) := by
  simp [Ideal.ofBits, Ideal.ieee]

/-- An extended real whose absolute value `max a (-a)` is below `+∞` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One element of `|x| < +∞` (the infinity a broadcast scalar constant) being true says the element of `x` is real. -/
theorem real_of_cmp {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := h
  rw [inf_bits] at h'
  refine real_of_abs_lt_top (x i) ?_
  unfold Ideal.cmp at h'
  by_contra hn
  simp [hn] at h'

/-- The precondition "every float input is finite", at the ideal instance: every entry of every input is a real number. -/
theorem real_of_pre (x0 : FVec Ideal S4x2048x4096 .f32) (x1 x2 : FVec Ideal S4096x4096 .f32) (x3 : FVec Ideal S16777216 .f32) (x4 : FVec Ideal S4096 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_cmp _ x0 i (Host.reduce_andi_all _ _ _ _ _ h0' i),
    fun i => real_of_cmp _ x1 i (Host.reduce_andi_all _ _ _ _ _ h1 i),
    fun i => real_of_cmp _ x2 i (Host.reduce_andi_all _ _ _ _ _ h2 i),
    fun i => real_of_cmp _ x3 i (Host.reduce_andi_all _ _ _ _ _ h3 i),
    fun i => real_of_cmp _ x4 i (Host.reduce_andi_all _ _ _ _ _ h4 i)⟩

end Cert.Finite
end
-- ==== Proof.lean ====
/-
  The certificate. The kernel computes, over an 8 x 4 x 4 grid, the product of the input
  (reshaped to 8192 x 4096) with the transpose of (sparse weight times mask plus dense weight),
  1024 contracted positions per step into a carried accumulator, and adds the bias at the last
  step; the reference computes the product with the transposed masked weight and the product
  with the transposed dense weight, adds them, and adds the bias. The three frames are the
  generated ones (the reference's from its run); the idealization rewrote nothing; and over
  the extended reals the two results are equal entry by entry because the inputs are finite,
  so that x (a + b) = x a + x b holds for every product in the sums.
-/
import proofs.«141378_j30837865185920_1_alg».proof.Defs
import proofs.«141378_j30837865185920_1_alg».proof.Proof.Gen.Kernel
import proofs.«141378_j30837865185920_1_alg».proof.Proof.Gen.Kernel.Frame
import proofs.«141378_j30837865185920_1_alg».proof.Proof.Gen.KernelIdeal
import proofs.«141378_j30837865185920_1_alg».proof.Proof.Gen.KernelIdeal.Frame
import proofs.«141378_j30837865185920_1_alg».proof.Proof.Gen.ReferenceIdeal
import proofs.«141378_j30837865185920_1_alg».proof.Proof.Gen.Pre_finite_inputs
import proofs.«141378_j30837865185920_1_alg».proof.Proof.Gen.ReferenceIdeal.Run
import proofs.«141378_j30837865185920_1_alg».proof.Proof.Gen.ReferenceIdeal.Read
import proofs.«141378_j30837865185920_1_alg».proof.Proof.Result
import proofs.«141378_j30837865185920_1_alg».proof.Proof.Bridge
import proofs.«141378_j30837865185920_1_alg».proof.Proof.Finite
import Idealize.ShloMosaic.Adequacy
import Idealize.ShloMosaic.Init

noncomputable section

namespace Cert.Proof

open Idealize.ShloMosaic Idealize.SL.Sem
open Cert.KernelIdeal.Blocks Cert.KernelIdeal.Result

/-- The word-level kernel terminates, faults nowhere and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the five arguments, both programs end with the same result: the reshaped
    product-plus-bias array, which for finite inputs is the reference's sum of two products plus the bias. -/
theorem algebraic : Cert.algebraic_KernelIdeal_ReferenceIdeal := by
  intro m ρ m' ρ' hpre hagree
  refine ⟨fun c => shapeCast Cert.KernelIdeal.S4x2048x4096 (prodBias (lhsArr m c) (rhsArr m c) (biasArr m c))
    Cert.KernelIdeal.Facts₀.shapeCasts_S8192x4096_S4x2048x4096, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, -⟩ := Cert.Finite.real_of_pre _ _ _ _ _ (hpre c)
  rw [(hagree c).1, (hagree c).2.1, (hagree c).2.2.1, (hagree c).2.2.2.1, (hagree c).2.2.2.2]
  show _ = shapeCast Cert.KernelIdeal.S4x2048x4096 (prodBias (lhsArr m c) (rhsArr m c) (biasArr m c)) _
  rw [lhsArr_eq m c, rhsArr_eq m c, biasArr_eq m c, Cert.Bridge.prodBias_eq_ref _ _ _ _ _ r0 r1 r2 r3]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
